-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v33_0)) (v1 : (c : Dev Cert.KernelIdeal.nD) → Buf (Elt Ideal) ((c.tc : Thread Cert.KernelIdeal.nD Cert.KernelIdeal.τ).loc Cert.KernelIdeal.main_v33_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33_0) = v0 c
          ∧ r.2.mem ((c.tc : Thread Cert.KernelIdeal.nD Cert.KernelIdeal.τ).loc Cert.KernelIdeal.main_v33_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S640000 : Shape := ⟨1, ![640000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S640000 32) (main_arg2 : IVec S640000 32) (main_arg3 : FVec F S128x128 .f32) (main_arg4 : FVec F S128 .f32) (main_arg5 : FVec F S128x128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_v13 main_v16
-- ==== Kernel.lean ====
abbrev S50000x128 : Shape := ⟨2, ![50000, 128]⟩
abbrev S640000 : Shape := ⟨1, ![640000]⟩
abbrev S128x128 : Shape := ⟨2, ![128, 128]⟩
abbrev S128 : Shape := ⟨1, ![128]⟩
abbrev S_ : Shape := ⟨0, ![]⟩
abbrev S640000x1 : Shape := ⟨2, ![640000, 1]⟩
abbrev S640000x128 : Shape := ⟨2, ![640000, 128]⟩
abbrev S256x128 : Shape := ⟨2, ![256, 128]⟩
abbrev S128x256 : Shape := ⟨2, ![128, 256]⟩
abbrev S256 : Shape := ⟨1, ![256]⟩
abbrev S1x256 : Shape := ⟨2, ![1, 256]⟩
abbrev S6400x128 : Shape := ⟨2, ![6400, 128]⟩
abbrev S6400x256 : Shape := ⟨2, ![6400, 256]⟩

abbrev nBuf : Space → Nat
  | .hbm => 64
  | .vmem => 8
  | .smem => 0
  | _ => 0

abbrev bufTy : (tb : Table) → Fin (tcTables nBuf tb) → BufTy
  | .hbm, ⟨0, _⟩ => ⟨S50000x128, .f32⟩
  | .hbm, ⟨1, _⟩ => ⟨S640000, .i32⟩
  | .hbm, ⟨2, _⟩ => ⟨S640000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S_, .i32⟩
  | .hbm, ⟨8, _⟩ => ⟨S640000, .i32⟩
  | .hbm, ⟨9, _⟩ => ⟨S640000, .i1⟩
  | .hbm, ⟨10, _⟩ => ⟨S_, .i32⟩
  | .hbm, ⟨11, _⟩ => ⟨S640000, .i32⟩
  | .hbm, ⟨12, _⟩ => ⟨S640000, .i32⟩
  | .hbm, ⟨13, _⟩ => ⟨S640000, .i32⟩
  | .hbm, ⟨14, _⟩ => ⟨S_, .i32⟩
  | .hbm, ⟨15, _⟩ => ⟨S640000, .i32⟩
  | .hbm, ⟨16, _⟩ => ⟨S640000, .i1⟩
  | .hbm, ⟨17, _⟩ => ⟨S_, .i32⟩
  | .hbm, ⟨18, _⟩ => ⟨S640000, .i32⟩
  | .hbm, ⟨19, _⟩ => ⟨S640000, .i32⟩
  | .hbm, ⟨20, _⟩ => ⟨S640000, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S640000, .i32⟩
  | .hbm, ⟨25, _⟩ => ⟨S640000, .i32⟩
  | .hbm, ⟨26, _⟩ => ⟨S_, .i32⟩
  | .hbm, ⟨27, _⟩ => ⟨S640000, .i32⟩
  | .hbm, ⟨28, _⟩ => ⟨S640000, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S640000, .i32⟩
  | .hbm, ⟨33, _⟩ => ⟨S640000, .i32⟩
  | .hbm, ⟨34, _⟩ => ⟨S_, .i32⟩
  | .hbm, ⟨35, _⟩ => ⟨S640000, .i32⟩
  | .hbm, ⟨36, _⟩ => ⟨S640000, .i32⟩
  | .hbm, ⟨37, _⟩ => ⟨S_, .i32⟩
  | .hbm, ⟨38, _⟩ => ⟨S640000, .i32⟩
  | .hbm, ⟨39, _⟩ => ⟨S640000, .i1⟩
  | .hbm, ⟨40, _⟩ => ⟨S_, .i32⟩
  | .hbm, ⟨41, _⟩ => ⟨S640000, .i32⟩
  | .hbm, ⟨42, _⟩ => ⟨S640000, .i32⟩
  | .hbm, ⟨43, _⟩ => ⟨S640000, .i32⟩
  | .hbm, ⟨44, _⟩ => ⟨S640000x1, .i32⟩
  | .hbm, ⟨45, _⟩ => ⟨S640000x128, .f32⟩
  | .hbm, ⟨46, _⟩ => ⟨S_, .i32⟩
  | .hbm, ⟨47, _⟩ => ⟨S640000, .i32⟩
  | .hbm, ⟨48, _⟩ => ⟨S640000, .i1⟩
  | .hbm, ⟨49, _⟩ => ⟨S_, .i32⟩
  | .hbm, ⟨50, _⟩ => ⟨S640000, .i32⟩
  | .hbm, ⟨51, _⟩ => ⟨S640000, .i32⟩
  | .hbm, ⟨52, _⟩ => ⟨S640000, .i32⟩
  | .hbm, ⟨53, _⟩ => ⟨S640000x1, .i32⟩
  | .hbm, ⟨54, _⟩ => ⟨S640000x128, .f32⟩
  | .hbm, ⟨55, _⟩ => ⟨S640000x128, .f32⟩
  | .hbm, ⟨56, _⟩ => ⟨S640000x128, .bf16⟩
  | .hbm, ⟨57, _⟩ => ⟨S256x128, .f32⟩
  | .hbm, ⟨58, _⟩ => ⟨S128x256, .f32⟩
  | .hbm, ⟨59, _⟩ => ⟨S128x256, .bf16⟩
  | .hbm, ⟨60, _⟩ => ⟨S256, .f32⟩
  | .hbm, ⟨61, _⟩ => ⟨S1x256, .f32⟩
  | .hbm, ⟨62, _⟩ => ⟨S640000x128, .f32⟩
  | .hbm, ⟨63, _⟩ => ⟨S640000x128, .f32⟩
  | .local _ .vmem, ⟨0, _⟩ => ⟨S6400x128, .bf16⟩
  | .local _ .vmem, ⟨1, _⟩ => ⟨S6400x128, .bf16⟩
  | .local _ .vmem, ⟨2, _⟩ => ⟨S128x256, .bf16⟩
  | .local _ .vmem, ⟨3, _⟩ => ⟨S1x256, .f32⟩
  | .local _ .vmem, ⟨4, _⟩ => ⟨S6400x128, .f32⟩
  | .local _ .vmem, ⟨5, _⟩ => ⟨S6400x128, .f32⟩
  | .local _ .vmem, ⟨6, _⟩ => ⟨S6400x128, .f32⟩
  | .local _ .vmem, ⟨7, _⟩ => ⟨S6400x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_v6 : Ref sig .tc := ⟨.hbm, 16, rfl⟩
abbrev main_c_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_3 : Ref sig .tc := ⟨.hbm, 21, rfl⟩
abbrev main_c_4 : Ref sig .tc := ⟨.hbm, 22, rfl⟩
abbrev main_call2_v0 : Ref sig .tc := ⟨.hbm, 23, rfl⟩
abbrev main_call2_v1 : Ref sig .tc := ⟨.hbm, 24, rfl⟩
abbrev main_call2_v2 : Ref sig .tc := ⟨.hbm, 25, rfl⟩
abbrev main_call2_v3 : Ref sig .tc := ⟨.hbm, 26, rfl⟩
abbrev main_call2_v4 : Ref sig .tc := ⟨.hbm, 27, rfl⟩
abbrev main_v10 : Ref sig .tc := ⟨.hbm, 28, rfl⟩
abbrev main_c_5 : Ref sig .tc := ⟨.hbm, 29, rfl⟩
abbrev main_c_6 : Ref sig .tc := ⟨.hbm, 30, rfl⟩
abbrev main_call3_v0 : Ref sig .tc := ⟨.hbm, 31, rfl⟩
abbrev main_call3_v1 : Ref sig .tc := ⟨.hbm, 32, rfl⟩
abbrev main_call3_v2 : Ref sig .tc := ⟨.hbm, 33, rfl⟩
abbrev main_call3_v3 : Ref sig .tc := ⟨.hbm, 34, rfl⟩
abbrev main_call3_v4 : Ref sig .tc := ⟨.hbm, 35, rfl⟩
abbrev main_v11 : Ref sig .tc := ⟨.hbm, 36, rfl⟩
abbrev main_c_7 : Ref sig .tc := ⟨.hbm, 37, rfl⟩
abbrev main_v12 : Ref sig .tc := ⟨.hbm, 38, rfl⟩
abbrev main_v13 : Ref sig .tc := ⟨.hbm, 39, rfl⟩
abbrev main_c_8 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_c_9 : Ref sig .tc := ⟨.hbm, 46, rfl⟩
abbrev main_v19 : Ref sig .tc := ⟨.hbm, 47, rfl⟩
abbrev main_v20 : Ref sig .tc := ⟨.hbm, 48, rfl⟩
abbrev main_c_10 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33_0 : Ref sig .tc := ⟨.hbm, 62, rfl⟩
abbrev main_v33_1 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S6400x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S6400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bitsLt_bf16_f32 : FTy.bits .bf16 < FTy.bits .f32
  concatenates_S128x128_S128x128_S256x128_d0 : Shape.Concatenates [S128x128, S128x128] S256x128 0
  transposes_S256x128_S128x256_1_0 : S256x128.Transposes [1, 0] S128x256
  concatenates_S128_S128_S256_d0 : Shape.Concatenates [S128, S128] S256 0
  shapeCasts_S256_S1x256 : S256.ShapeCasts S1x256
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S6400x256 : S1x256.Broadcasts S6400x256
  slices_S6400x256_o0_0_S6400x128 : S6400x256.Slices ![0, 0] S6400x128
  slices_S6400x256_o0_128_S6400x128 : S6400x256.Slices ![0, 128] S6400x128
  gather_S50000x128_S640000x1_S640000x128_1_0_n_n_0_1_1128_wf : GatherDims.WF S50000x128 S640000x1 S640000x128 [1] [0] [] [0] [] 1 ![1, 128]
  dot_S6400x128_S128x256_S6400x256_1_0_0_1_n_n_wf : DotDims.WF S6400x128 S128x256 S6400x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x128.size a ≤ S640000x128.size a
  hwx0_0 : ∀ i : grid0.Coords, EltTy.bits .bf16 = 32 ∨ (Rect.block (s := S640000x128) S6400x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .bf16 = 32 ∨ (Rect.block (s := S128x256) S128x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S6400x128.size a ≤ S640000x128.size a
  hwx0_3 : ∀ i : grid0.Coords, EltTy.bits .f32 = 32 ∨ (Rect.block (s := S640000x128) S6400x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S6400x128.size a ≤ S640000x128.size a
  hwx0_4 : ∀ i : grid0.Coords, EltTy.bits .f32 = 32 ∨ (Rect.block (s := S640000x128) S6400x128.size (cc0_transform_4 i) (hinb0_4 i)).WholeWords (EltTy.packing .f32)

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def dot_S6400x128_S128x256_S6400x256_1_0_0_1_n_n : DotDims S6400x128 S128x256 S6400x256 where
  lhsContracting := [1]
  rhsContracting := [0]
  lhsNonContracting := [0]
  rhsNonContracting := [1]
  lhsBatch := []
  rhsBatch := []
  wf := dot_S6400x128_S128x256_S6400x256_1_0_0_1_n_n_wf

abbrev win0_0 : Pipeline.Window sig grid0 :=
  Pipeline.Window.ofSpec (Memref.whole main_v27) S6400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v33_0) S6400x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v33_1) S6400x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S50000x128 : Shape := ⟨2, ![50000, 128]⟩
abbrev S640000 : Shape := ⟨1, ![640000]⟩
abbrev S128x128 : Shape := ⟨2, ![128, 128]⟩
abbrev S128 : Shape := ⟨1, ![128]⟩
abbrev S_ : Shape := ⟨0, ![]⟩
abbrev S640000x1 : Shape := ⟨2, ![640000, 1]⟩
abbrev S640000x128 : Shape := ⟨2, ![640000, 128]⟩
abbrev S1x128 : Shape := ⟨2, ![1, 128]⟩

abbrev nBuf : Space → Nat
  | .hbm => 34
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S640000, .i32⟩
  | .hbm, ⟨2, _⟩ => ⟨S640000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S_, .i32⟩
  | .hbm, ⟨8, _⟩ => ⟨S640000, .i32⟩
  | .hbm, ⟨9, _⟩ => ⟨S640000, .i1⟩
  | .hbm, ⟨10, _⟩ => ⟨S_, .i32⟩
  | .hbm, ⟨11, _⟩ => ⟨S640000, .i32⟩
  | .hbm, ⟨12, _⟩ => ⟨S640000, .i32⟩
  | .hbm, ⟨13, _⟩ => ⟨S640000, .i32⟩
  | .hbm, ⟨14, _⟩ => ⟨S640000x1, .i32⟩
  | .hbm, ⟨15, _⟩ => ⟨S640000x128, .f32⟩
  | .hbm, ⟨16, _⟩ => ⟨S_, .i32⟩
  | .hbm, ⟨17, _⟩ => ⟨S640000, .i32⟩
  | .hbm, ⟨18, _⟩ => ⟨S640000, .i1⟩
  | .hbm, ⟨19, _⟩ => ⟨S_, .i32⟩
  | .hbm, ⟨20, _⟩ => ⟨S640000, .i32⟩
  | .hbm, ⟨21, _⟩ => ⟨S640000, .i32⟩
  | .hbm, ⟨22, _⟩ => ⟨S640000, .i32⟩
  | .hbm, ⟨23, _⟩ => ⟨S640000x1, .i32⟩
  | .hbm, ⟨24, _⟩ => ⟨S640000x128, .f32⟩
  | .hbm, ⟨25, _⟩ => ⟨S640000x128, .f32⟩
  | .hbm, ⟨26, _⟩ => ⟨S640000x128, .f32⟩
  | .hbm, ⟨27, _⟩ => ⟨S1x128, .f32⟩
  | .hbm, ⟨28, _⟩ => ⟨S640000x128, .f32⟩
  | .hbm, ⟨29, _⟩ => ⟨S640000x128, .f32⟩
  | .hbm, ⟨30, _⟩ => ⟨S640000x128, .f32⟩
  | .hbm, ⟨31, _⟩ => ⟨S1x128, .f32⟩
  | .hbm, ⟨32, _⟩ => ⟨S640000x128, .f32⟩
  | .hbm, ⟨33, _⟩ => ⟨S640000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  gather_S50000x128_S640000x1_S640000x128_1_0_n_n_0_1_1128_wf : GatherDims.WF S50000x128 S640000x1 S640000x128 [1] [0] [] [0] [] 1 ![1, 128]
  dot_S640000x128_S128x128_S640000x128_1_1_0_0_n_n_wf : DotDims.WF S640000x128 S128x128 S640000x128 [1] [1] [0] [0] [] []

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def dot_S640000x128_S128x128_S640000x128_1_1_0_0_n_n : DotDims S640000x128 S128x128 S640000x128 where
  lhsContracting := [1]
  rhsContracting := [1]
  lhsNonContracting := [0]
  rhsNonContracting := [0]
  lhsBatch := []
  rhsBatch := []
  wf := dot_S640000x128_S128x128_S640000x128_1_1_0_0_n_n_wf

class Facts : Prop extends Facts₀ where

variable [Facts]
-- ==== Proof.NodeRow.lean ====
/-
  Which row of the node table an edge endpoint reads.

  An endpoint is a signed 32-bit word `x`. A row gather reads its start index signed and clamps it into the
  table, so the row it reads is `min (max x 0) 49999` (`rowOf`). Indexing first counts a negative word from
  the table's end (`wrapNeg`: `x + 50000` when `x < 0`). One program clamps explicitly into `[0, 49999]`
  (`clipNode`) between two such wraps; the other wraps once and leaves the clamp to the gather. The two read
  the same row, at every word: `clipNode` is already the gather's own clamp, a clamped word is never negative
  so the second wrap leaves it alone, and clamping twice is clamping once.
-/
import Idealize.ShloMosaic.PureOps.Float

namespace Cert.EdgeRows

open Idealize.ShloMosaic

/-- A negative index counts from the end of the 50000-row table. -/
def wrapNeg (x : BitVec 32) : BitVec 32 :=
  Scalar.select (IntOp.cmpi .slt x 0#32) (IntOp.addi x 50000#32) x

/-- The explicit signed clamp into `[0, 49999]`: first from below, then from above. -/
def clipNode (y : BitVec 32) : BitVec 32 :=
  IntOp.minsi 49999#32 (IntOp.maxsi 0#32 y)

/-- The row a gather reads for the start index `x`: `x` read signed, clamped into the table. -/
def rowOf (x : BitVec 32) : Nat := min x.toInt.toNat 49999

theorem rowOf_lt (x : BitVec 32) : rowOf x < 50000 := by
  unfold rowOf; omega

/-- A word that is not negative is its own wrap. -/
theorem wrapNeg_of_nonneg {x : BitVec 32} (h : 0 ≤ x.toInt) : wrapNeg x = x := by
  have hs : x.slt 0#32 = false := by
    show decide (x.toInt < (0#32 : BitVec 32).toInt) = false
    have h0 : (0#32 : BitVec 32).toInt = 0 := by decide
    rw [h0]; exact decide_eq_false (not_lt.mpr h)
  unfold wrapNeg IntOp.cmpi
  show Scalar.select (BitVec.ofBool (x.slt 0#32)) _ _ = x
  rw [hs]
  exact if_neg (by decide)

/-- A signed comparison of words is the comparison of their signed values. -/
theorem slt_iff (a b : BitVec 32) : a.slt b = true ↔ a.toInt < b.toInt := by
  show decide (a.toInt < b.toInt) = true ↔ _
  exact decide_eq_true_iff

/-- The lower half of the clamp, read signed. -/
theorem toInt_maxsi_zero (y : BitVec 32) : (IntOp.maxsi 0#32 y).toInt = max 0 y.toInt := by
  have h0 : (0#32 : BitVec 32).toInt = 0 := by decide
  unfold IntOp.maxsi
  by_cases hneg : y.toInt < 0
  · rw [if_pos ((slt_iff y 0#32).mpr (by rw [h0]; exact hneg)), h0]
    omega
  · rw [if_neg (fun h => hneg (by have := (slt_iff y 0#32).mp h; rwa [h0] at this))]
    omega

/-- The upper half of the clamp, read signed. -/
theorem toInt_minsi_top (z : BitVec 32) : (IntOp.minsi 49999#32 z).toInt = min 49999 z.toInt := by
  have hN : (49999#32 : BitVec 32).toInt = 49999 := by decide
  unfold IntOp.minsi
  by_cases hbig : 49999 < z.toInt
  · rw [if_pos ((slt_iff 49999#32 z).mpr (by rw [hN]; exact hbig)), hN]
    omega
  · rw [if_neg (fun h => hbig (by have := (slt_iff 49999#32 z).mp h; rwa [hN] at this))]
    omega

/-- The explicit clamp, read signed, is the clamp of the signed value. -/
theorem toInt_clipNode (y : BitVec 32) : (clipNode y).toInt = min 49999 (max 0 y.toInt) := by
  unfold clipNode
  rw [toInt_minsi_top, toInt_maxsi_zero]

/-- THE INDEX FACT: wrapping an explicitly clamped word and letting the gather clamp it again reads the row the
    gather reads for the unclamped word. -/
theorem rowOf_wrapNeg_clipNode (y : BitVec 32) : rowOf (wrapNeg (clipNode y)) = rowOf y := by
  have hc := toInt_clipNode y
  rw [wrapNeg_of_nonneg (by rw [hc]; omega)]
  unfold rowOf
  rw [hc]
  omega

end Cert.EdgeRows
-- ==== Proof.LibRowGather.lean ====
/-
  A gather of whole ROWS of a table, read at an index.

  `table[idx]` for a table of shape [N, D] and a vector of E positions prints as a `stablehlo.gather` whose start
  indices are the [E, 1] column of positions: the operand's row axis is collapsed and start-indexed, its column axis is
  the one offset axis (the whole row of D entries is the slice), there are no batching axes, and the index vector lies
  on axis 1 of the start indices. Result entry (e, k) is the table's entry (r, k), where r is position e's start index
  read as a SIGNED integer and clamped into [0, N - 1]: a negative index reads row 0, one past the end the last row.
  Any element type, any extents.
-/
import Idealize.ShloMosaic.Lib.ValueIdx

namespace Idealize.ShloMosaic.RowGather

open Idealize.ShloMosaic Idealize.ShloMosaic.ValueIdx

/-- Every entry of a one-element list is that element. -/
theorem getElem_of_eq_singleton {β : Type} {l : List β} {b : β} (hl : l = [b]) (i : Nat) (h : i < l.length) : l[i] = b := by
  subst hl
  match i, h with
  | 0, _ => rfl

/-- The row a start index reads in a table of N rows: the index read signed, clamped into the table. -/
def rowAt (N : Nat) {w : Nat} (x : BitVec w) : Nat := min x.toInt.toNat (N - 1)

theorem rowAt_lt {N : Nat} (hN : 0 < N) {w : Nat} (x : BitVec w) : rowAt N x < N := by
  unfold rowAt; omega

/-- THE ROW GATHER READ AT (e, k): the table at the row position e's start index names (read signed, clamped into the
    table) and at column k. The hypotheses `hoff` … `hivd` are the printed dimension numbers, each closed by `rfl` at a
    program's literal record. -/
theorem gather_rows_apply {α : Type} {N D E w : Nat} (d : GatherDims ⟨2, ![N, D]⟩ ⟨2, ![E, 1]⟩ ⟨2, ![E, D]⟩)
    (hoff : d.offsetDims = [1]) (hcoll : d.collapsedSliceDims = [0]) (hob : d.operandBatchingDims = [])
    (hsim : d.startIndexMap = [0]) (hivd : d.indexVectorDim = 1) (hN : 0 < N)
    (x : (⟨2, ![N, D]⟩ : Shape).Idx → α) (idx : IVec ⟨2, ![E, 1]⟩ w) (e : Fin E) (k : Fin D) :
    Host.gather d x idx (ix2 e k) = x (ix2 ⟨rowAt N (idx (ix2 e (0 : Fin 1))), rowAt_lt hN _⟩ k) := by
  unfold Host.gather
  congr 1
  funext a
  apply Fin.ext
  have hob0 : ∀ b : Fin 2, b ∉ d.operandBatchingDims := fun b => by rw [hob]; exact List.not_mem_nil
  match a with
  | ⟨0, _⟩ =>
    -- the row axis: collapsed (no offset coordinate) and start-indexed
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 e k) idx 0 + d.batchCoord (ix2 e k) 0 + d.offCoord (ix2 e k) 0 = rowAt N (idx (ix2 e (0 : Fin 1)))
    rw [GatherDims.batchCoord_eq_zero _ _ _ (hob0 0), GatherDims.offCoord_eq_zero _ _ _ hk, Nat.add_zero]
    unfold GatherDims.start
    rw [dif_pos hm]
    show min (idx _).toInt.toNat (N - d.sliceSizes 0) = min (idx (ix2 e (0 : Fin 1))).toInt.toNat (N - 1)
    rw [hsl]
    congr 3
    congr 1
    funext b
    match b with
    | ⟨0, _⟩ =>
      -- the start indices' row: the result's batch coordinate, which is its row e
      unfold GatherDims.siIdx
      rw [dif_neg (by rw [hivd]; simp)]
      unfold GatherDims.siCoord
      apply Fin.ext
      simp only [Fin.val_cast]
      have hbd : d.batchDims = [0] := by
        show (⟨2, ![E, D]⟩ : Shape).kept d.offsetDims = [0]
        rw [hoff]; rfl
      rw [getElem_of_eq_singleton hbd]
      rfl
    | ⟨1, _⟩ =>
      -- the index vector's axis: the one component of the start index
      unfold GatherDims.siIdx
      rw [dif_pos (by rw [hivd])]
      apply Fin.ext
      show List.idxOf (0 : Fin 2) d.startIndexMap = 0
      rw [hsim]; simp
  | ⟨1, _⟩ =>
    -- the column axis: not start-indexed (the slice starts at 0), its offset coordinate the result's column k
    have hm : (1 : Fin 2) ∉ d.startIndexMap := by rw [hsim]; simp
    have hk : (1 : Fin 2) ∈ d.sKept := by rw [GatherDims.mem_sKept, hcoll, hob]; simp
    show d.start (ix2 e k) idx 1 + d.batchCoord (ix2 e k) 1 + d.offCoord (ix2 e k) 1 = k.val
    rw [GatherDims.batchCoord_eq_zero _ _ _ (hob0 1), Nat.add_zero]
    unfold GatherDims.start
    rw [dif_neg hm, Nat.zero_add]
    unfold GatherDims.offCoord
    rw [dif_pos hk, getElem_of_eq_singleton hoff]
    rfl

end Idealize.ShloMosaic.RowGather
-- ==== Proof.Spec.lean ====
/-
  What both programs compute, as ONE function of the argument arrays.

  There are 50000 nodes with 128 features each and 640000 edges, each with two endpoint words `src` and `dst`. An
  endpoint word `x` names the node `node x`: a negative word counts from the table's end, and the result is clamped
  into the table (Proof/NodeRow.lean). The edge's score is the difference of its endpoints' feature rows,
      diff e k = feat[node (src e), k] − feat[node (dst e), k],
  and a dense projection with weights `W` (one row of 128 per output channel) and bias `b` is
      proj (e, c) = (∑ k, diff e k · W[c, k]) + b[c]
  on the extended reals. The result is the pair of projections with (W_w, W_b) and with (X_w, X_b).
  Nothing here needs the inputs finite: both programs form the same differences, the same products and the same sum in
  the same order of operations, so no law of the extended reals beyond reading the terms is used.
-/
import Idealize.ShloMosaic.PureOps.Ideal
import Idealize.ShloMosaic.Lib.ValueIdx
import proofs.«428263_j79285096284696_3_alg».proof.Proof.NodeRow
import proofs.«428263_j79285096284696_3_alg».proof.Proof.LibRowGather

noncomputable section

open scoped BigOperators

namespace Cert.EdgeProj

open Idealize.ShloMosaic Idealize.ShloMosaic.ValueIdx Idealize.ShloMosaic.RowGather Cert.EdgeRows

/-- The node table, the endpoint vectors, one projection's weights and bias, one projection's result. -/
abbrev Nodes : Shape := ⟨2, ![50000, 128]⟩
abbrev Edges : Shape := ⟨1, ![640000]⟩
abbrev EdgeCol : Shape := ⟨2, ![640000, 1]⟩
abbrev Weights : Shape := ⟨2, ![128, 128]⟩
abbrev Bias : Shape := ⟨1, ![128]⟩
abbrev Scores : Shape := ⟨2, ![640000, 128]⟩

/-- The kernel fuses the two projections along one 256-wide axis: column c of the first projection … -/
abbrev firstHalf (c : Fin 128) : Fin 256 := ⟨c.val, by have := c.isLt; omega⟩
/-- … and column c of the second. -/
abbrev secondHalf (c : Fin 128) : Fin 256 := ⟨c.val + 128, by have := c.isLt; omega⟩

/-- The node an endpoint word names. -/
def node (x : BitVec 32) : Fin 50000 := ⟨rowOf (wrapNeg x), rowOf_lt _⟩

/-- An edge's score at feature `k`: its source node's feature less its destination node's. -/
def diff (feat : Nodes.Idx → EReal) (src dst : Edges.Idx → BitVec 32) (e : Fin 640000) (k : Fin 128) : EReal :=
  feat (ix2 (node (src (ix1 e))) k) - feat (ix2 (node (dst (ix1 e))) k)

/-- One dense projection of the scores: channel `c` of edge `e` is the score row against weight row `c`, plus the bias. -/
def proj (feat : Nodes.Idx → EReal) (src dst : Edges.Idx → BitVec 32) (W : Weights.Idx → EReal) (b : Bias.Idx → EReal) :
    Scores.Idx → EReal :=
  fun i => (∑ k : Fin 128, diff feat src dst (i 0) k * W (ix2 (i 1) k)) + b (ix1 (i 1))

/-- A row gather from the node table at a column of start words, read at (e, k): the table at the row the gather's own
    clamp gives word e, whatever the word. -/
theorem gather_nodes_apply (d : GatherDims Nodes EdgeCol Scores)
    (hoff : d.offsetDims = [1]) (hcoll : d.collapsedSliceDims = [0]) (hob : d.operandBatchingDims = [])
    (hsim : d.startIndexMap = [0]) (hivd : d.indexVectorDim = 1)
    (feat : Nodes.Idx → EReal) (idx : IVec EdgeCol 32) (e : Fin 640000) (k : Fin 128) :
    Host.gather d feat idx (ix2 e k) = feat (ix2 ⟨rowOf (idx (ix2 e (0 : Fin 1))), rowOf_lt _⟩ k) :=
  gather_rows_apply d hoff hcoll hob hsim hivd (by decide) feat idx e k

/-- Where the start word is the endpoint word wrapped once, the gather reads the endpoint's node. -/
theorem gather_wrapped (d : GatherDims Nodes EdgeCol Scores)
    (hoff : d.offsetDims = [1]) (hcoll : d.collapsedSliceDims = [0]) (hob : d.operandBatchingDims = [])
    (hsim : d.startIndexMap = [0]) (hivd : d.indexVectorDim = 1)
    (feat : Nodes.Idx → EReal) (idx : IVec EdgeCol 32) (e : Fin 640000) (k : Fin 128) (x : BitVec 32)
    (hx : idx (ix2 e (0 : Fin 1)) = wrapNeg x) :
    Host.gather d feat idx (ix2 e k) = feat (ix2 (node x) k) := by
  rw [gather_nodes_apply d hoff hcoll hob hsim hivd, hx]
  rfl

/-- Where the start word is the endpoint word wrapped, clamped explicitly and wrapped again, the gather reads the same
    node (Proof/NodeRow.lean: the explicit clamp is the gather's own). -/
theorem gather_clipped (d : GatherDims Nodes EdgeCol Scores)
    (hoff : d.offsetDims = [1]) (hcoll : d.collapsedSliceDims = [0]) (hob : d.operandBatchingDims = [])
    (hsim : d.startIndexMap = [0]) (hivd : d.indexVectorDim = 1)
    (feat : Nodes.Idx → EReal) (idx : IVec EdgeCol 32) (e : Fin 640000) (k : Fin 128) (x : BitVec 32)
    (hx : idx (ix2 e (0 : Fin 1)) = wrapNeg (clipNode (wrapNeg x))) :
    Host.gather d feat idx (ix2 e k) = feat (ix2 (node x) k) := by
  rw [gather_nodes_apply d hoff hcoll hob hsim hivd, hx]
  exact congrArg (fun r => feat (ix2 r k)) (Fin.ext (rowOf_wrapNeg_clipNode (wrapNeg x)))

end Cert.EdgeProj

end
-- ==== Proof.RefValue.lean ====
/-
  The reference's two results are the specification's two projections.

  The reference wraps each endpoint word once and gathers: the gather's own clamp then names the endpoint's node
  (Proof/Spec.lean `gather_wrapped`), so its score array is `diff`. Each result is a `dot_general` of the scores with
  one weight matrix, contracted over the feature axis of both — at the ideal values the sum over k of
  score[e, k] · W[c, k] — plus the bias broadcast along the edges: `proj`, term for term.
-/
import proofs.«428263_j79285096284696_3_alg».proof.Proof.Gen.ReferenceIdeal.Read
import proofs.«428263_j79285096284696_3_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.ValueIdx Cert.EdgeProj Cert.EdgeRows

/-- The start word the first gather reads for edge e: the source word wrapped once. -/
theorem start_src (x1 : (⟨S640000, .i32⟩ : BufTy).Contents (Elt Ideal)) (e : Fin 640000) :
    val_main_v5 (F := Ideal) x1 (ix2 e (0 : Fin 1)) = wrapNeg (x1 (ix1 e)) := by
  have hi : idx_main_v5 (ix2 e (0 : Fin 1)) = ix1 e := funext fun a => match a with | ⟨0, _⟩ => rfl
  rw [val_main_v5_apply, hi, val_main_v4_apply, val_main_v1_apply, val_main_v3_apply, val_main_v0_apply, val_main_v2_apply,
    val_main_c_apply, val_main_c_0_apply]
  rfl

/-- The start word the second gather reads for edge e: the destination word wrapped once. -/
theorem start_dst (x2 : (⟨S640000, .i32⟩ : BufTy).Contents (Elt Ideal)) (e : Fin 640000) :
    val_main_v12 (F := Ideal) x2 (ix2 e (0 : Fin 1)) = wrapNeg (x2 (ix1 e)) := by
  have hi : idx_main_v12 (ix2 e (0 : Fin 1)) = ix1 e := funext fun a => match a with | ⟨0, _⟩ => rfl
  rw [val_main_v12_apply, hi, val_main_v11_apply, val_main_v8_apply, val_main_v10_apply, val_main_v7_apply, val_main_v9_apply,
    val_main_c_1_apply, val_main_c_2_apply]
  rfl

/-- The reference's score array is the specification's. -/
theorem score_apply (x0 : (⟨S50000x128, .f32⟩ : BufTy).Contents (Elt Ideal)) (x1 x2 : (⟨S640000, .i32⟩ : BufTy).Contents (Elt Ideal))
    (e : Fin 640000) (k : Fin 128) :
    val_main_v14 (F := Ideal) x0 x1 x2 (ix2 e k) = diff x0 x1 x2 e k := by
  rw [val_main_v14_apply]
  unfold val_main_v6 val_main_v13 diff
  rw [gather_wrapped _ rfl rfl rfl rfl rfl x0 _ e k _ (start_src x1 e),
    gather_wrapped _ rfl rfl rfl rfl rfl x0 _ e k _ (start_dst x2 e)]
  rfl

/-- The first result: the projection with the first weights and bias. -/
theorem w_eq (x0 : (⟨S50000x128, .f32⟩ : BufTy).Contents (Elt Ideal)) (x1 x2 : (⟨S640000, .i32⟩ : BufTy).Contents (Elt Ideal))
    (x3 : (⟨S128x128, .f32⟩ : BufTy).Contents (Elt Ideal)) (x4 : (⟨S128, .f32⟩ : BufTy).Contents (Elt Ideal)) :
    val_main_v18 (F := Ideal) x0 x1 x2 x3 x4 = proj x0 x1 x2 x3 x4 := by
  funext i
  obtain ⟨e, c, rfl⟩ : ∃ (e : Fin 640000) (c : Fin 128), i = ix2 e c := ⟨i 0, i 1, eq_ix2 i⟩
  have hl : ∀ k : Fin 128, lidx_main_v15 (ix2 e c) k = ix2 e k := fun k =>
    funext fun a => match a with | ⟨0, _⟩ => rfl | ⟨1, _⟩ => rfl
  have hr : ∀ k : Fin 128, ridx_main_v15 (ix2 e c) k = ix2 c k := fun k =>
    funext fun a => match a with | ⟨0, _⟩ => rfl | ⟨1, _⟩ => rfl
  have hb : idx_main_v16 (idx_main_v17 (ix2 e c)) = ix1 c := funext fun a => match a with | ⟨0, _⟩ => rfl
  rw [val_main_v18_apply, val_main_v15_apply, val_main_v17_apply, val_main_v16_apply, hb]
  simp only [hl, hr, score_apply]
  rfl

/-- The second result: the projection with the second weights and bias. -/
theorem x_eq (x0 : (⟨S50000x128, .f32⟩ : BufTy).Contents (Elt Ideal)) (x1 x2 : (⟨S640000, .i32⟩ : BufTy).Contents (Elt Ideal))
    (x5 : (⟨S128x128, .f32⟩ : BufTy).Contents (Elt Ideal)) (x6 : (⟨S128, .f32⟩ : BufTy).Contents (Elt Ideal)) :
    val_main_v22 (F := Ideal) x0 x1 x2 x5 x6 = proj x0 x1 x2 x5 x6 := by
  funext i
  obtain ⟨e, c, rfl⟩ : ∃ (e : Fin 640000) (c : Fin 128), i = ix2 e c := ⟨i 0, i 1, eq_ix2 i⟩
  have hl : ∀ k : Fin 128, lidx_main_v19 (ix2 e c) k = ix2 e k := fun k =>
    funext fun a => match a with | ⟨0, _⟩ => rfl | ⟨1, _⟩ => rfl
  have hr : ∀ k : Fin 128, ridx_main_v19 (ix2 e c) k = ix2 c k := fun k =>
    funext fun a => match a with | ⟨0, _⟩ => rfl | ⟨1, _⟩ => rfl
  have hb : idx_main_v20 (idx_main_v21 (ix2 e c)) = ix1 c := funext fun a => match a with | ⟨0, _⟩ => rfl
  rw [val_main_v22_apply, val_main_v19_apply, val_main_v21_apply, val_main_v20_apply, hb]
  simp only [hl, hr, score_apply]
  rfl

end Cert.ReferenceIdeal.RefValue

end
-- ==== Proof.KernelBlock.lean ====
/-
  What the kernel body computes from its three loaded blocks, read at an index.

  The body multiplies the [6400, 128] block of scores by the whole [128, 256] fused weight matrix into a zero
  accumulator and adds the [1, 256] fused bias along the rows. At the ideal values entry (r, j) of that value is
      (∑ k, scores[r, k] · weights[k, j]) + bias[0, j]:
  the matrix product is the plain sum over the one contracted axis (the left operand's columns against the right
  operand's rows), the zero accumulator contributes nothing, and the shape casts of the loads are the identity.
  The two stores then take columns 0..127 and 128..255 of it.
-/
import proofs.«428263_j79285096284696_3_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.Block

open Cert.KernelIdeal Cert.KernelIdeal.Gen Idealize.ShloMosaic Idealize.ShloMosaic.ValueIdx

/-- The left operand's row axis is the result's row axis. -/
theorem lhs_row (i : S6400x256.Idx) (q : dot_S6400x128_S128x256_S6400x256_1_0_0_1_n_n.contr.Idx) :
    (dot_S6400x128_S128x256_S6400x256_1_0_0_1_n_n.lhsIdx i q 0).val = (i 0).val := by
  unfold DotDims.lhsIdx
  rw [dif_neg (show ¬(0 : Fin S6400x128.rank) ∈ dot_S6400x128_S128x256_S6400x256_1_0_0_1_n_n.lhsBatch by decide), dif_pos (show (0 : Fin S6400x128.rank) ∈ dot_S6400x128_S128x256_S6400x256_1_0_0_1_n_n.lhsNonContracting by decide)]
  rfl
/-- The left operand's column axis is the contracted one. -/
theorem lhs_col (i : S6400x256.Idx) (q : dot_S6400x128_S128x256_S6400x256_1_0_0_1_n_n.contr.Idx) :
    (dot_S6400x128_S128x256_S6400x256_1_0_0_1_n_n.lhsIdx i q 1).val = (q ⟨0, by decide⟩).val :=
  dot_S6400x128_S128x256_S6400x256_1_0_0_1_n_n.lhsIdx_val_of_single rfl i q
/-- The right operand's row axis is the contracted one. -/
theorem rhs_row (i : S6400x256.Idx) (q : dot_S6400x128_S128x256_S6400x256_1_0_0_1_n_n.contr.Idx) :
    (dot_S6400x128_S128x256_S6400x256_1_0_0_1_n_n.rhsIdx i q 0).val = (q ⟨0, by decide⟩).val :=
  dot_S6400x128_S128x256_S6400x256_1_0_0_1_n_n.rhsIdx_val_of_single rfl i q
/-- The right operand's column axis is the result's column axis. -/
theorem rhs_col (i : S6400x256.Idx) (q : dot_S6400x128_S128x256_S6400x256_1_0_0_1_n_n.contr.Idx) :
    (dot_S6400x128_S128x256_S6400x256_1_0_0_1_n_n.rhsIdx i q 1).val = (i 1).val := by
  unfold DotDims.rhsIdx
  rw [dif_neg (show ¬(1 : Fin S128x256.rank) ∈ dot_S6400x128_S128x256_S6400x256_1_0_0_1_n_n.rhsBatch by decide), dif_pos (show (1 : Fin S128x256.rank) ∈ dot_S6400x128_S128x256_S6400x256_1_0_0_1_n_n.rhsNonContracting by decide)]
  rfl

/-- THE BODY'S VALUE AT (r, j): the score row against weight column j, plus the bias at j. -/
theorem pay1_apply (P0 : Vec Ideal S6400x128 .bf16) (P1 : Vec Ideal S128x256 .bf16) (P2 : Vec Ideal S1x256 .f32)
    (r : Fin 6400) (j : Fin 256) :
    k0_pay1 (F := Ideal) P0 P1 P2 (ix2 r j)
      = (∑ k : Fin 128, P0 (ix2 r k) * P1 (ix2 k j)) + P2 (ix2 (0 : Fin 1) j) := by
  unfold k0_pay1
  rw [addf_apply, shapeCast_self, shapeCast_self, shapeCast_self]
  congr 1
  · simp only [matmul]
    rw [Ideal.matmul_constant_zero_apply, ← Equiv.sum_comp (contrEquiv1 dot_S6400x128_S128x256_S6400x256_1_0_0_1_n_n 128 rfl rfl).symm]
    refine Finset.sum_congr rfl fun k _ => ?_
    have hk := contrEquiv1_symm_val dot_S6400x128_S128x256_S6400x256_1_0_0_1_n_n 128 rfl rfl k
    have el : dot_S6400x128_S128x256_S6400x256_1_0_0_1_n_n.lhsIdx (ix2 r j) ((contrEquiv1 dot_S6400x128_S128x256_S6400x256_1_0_0_1_n_n 128 rfl rfl).symm k) = ix2 r k := funext fun a => Fin.ext (by
      match a with
      | ⟨0, _⟩ => exact lhs_row _ _
      | ⟨1, _⟩ => exact (lhs_col _ _).trans hk)
    have er : dot_S6400x128_S128x256_S6400x256_1_0_0_1_n_n.rhsIdx (ix2 r j) ((contrEquiv1 dot_S6400x128_S128x256_S6400x256_1_0_0_1_n_n 128 rfl rfl).symm k) = ix2 k j := funext fun a => Fin.ext (by
      match a with
      | ⟨0, _⟩ => exact (rhs_row _ _).trans hk
      | ⟨1, _⟩ => exact rhs_col _ _)
    rw [el, er]
  · exact broadcastTo_apply P2 broadcasts_S1x256_S6400x256 (ix2 r j) (ix2 (0 : Fin 1) j) (fun a => match a with
      | ⟨0, _⟩ => by show (0 : Nat) = if (1 : Nat) = 1 then 0 else _; rw [if_pos rfl]
      | ⟨1, _⟩ => by show j.val = if (256 : Nat) = 1 then 0 else j.val; rw [if_neg (by decide)])

end Cert.KernelIdeal.Block

end
-- ==== Proof.KernelPoint.lean ====
/-
  What one grid point leaves in each output block, read at an index, over arbitrary input blocks.

  The body stores columns 0..127 of its computed [6400, 256] value into the first output block and columns 128..255
  into the second. With the value read as in Proof/KernelBlock.lean, entry (r, c) of the first block is
      (∑ k, scores[r, k] · weights[k, c]) + bias[0, c]
  and of the second the same at column c + 128 of the fused weights and bias. The loads read the whole staged blocks
  (rectangles at offset zero of the blocks' own shape), so the blocks themselves are the operands.
-/
import proofs.«428263_j79285096284696_3_alg».proof.Proof.Gen.KernelIdeal.Value
import proofs.«428263_j79285096284696_3_alg».proof.Proof.KernelBlock
import proofs.«428263_j79285096284696_3_alg».proof.Proof.Spec

noncomputable section

open scoped BigOperators

namespace Cert.KernelIdeal.Point

open Cert.KernelIdeal Cert.KernelIdeal.Gen Cert.KernelIdeal.Value Cert.KernelIdeal.Block
open Idealize.ShloMosaic Idealize.ShloMosaic.ValueIdx Cert.EdgeProj

/-- The zero offsets of the body's whole-block accesses. -/
theorem offsets_zero : (![0, 0] : Fin 2 → Nat) = fun _ => 0 := funext fun a => by fin_cases a <;> rfl

/-- The first output block at (r, c). -/
theorem first_block_apply (x0 : Vec Ideal S6400x128 .bf16) (x1 : Vec Ideal S128x256 .bf16) (x2 : Vec Ideal S1x256 .f32)
    (r : Fin 6400) (c : Fin 128) :
    out0_3 x0 x1 x2 (ix2 r c)
      = (∑ k : Fin 128, x0 (ix2 r k) * x1 (ix2 k (firstHalf c))) + x2 (ix2 (0 : Fin 1) (firstHalf c)) := by
  unfold out0_3
  rw [canon3_eq]
  simp only [View.ld_unit_zero (S := S6400x128) offsets_zero, View.ld_unit_zero (S := S128x256) offsets_zero,
    View.ld_unit_zero (S := S1x256) offsets_zero]
  have hi : ix3_0 (ix2 r c) = ix2 r (firstHalf c) := funext fun a => match a with | ⟨0, _⟩ => rfl | ⟨1, _⟩ => rfl
  show k0_pay1 x0 x1 x2 (ix3_0 (ix2 r c)) = _
  rw [hi, pay1_apply]

/-- The second output block at (r, c). -/
theorem second_block_apply (x0 : Vec Ideal S6400x128 .bf16) (x1 : Vec Ideal S128x256 .bf16) (x2 : Vec Ideal S1x256 .f32)
    (r : Fin 6400) (c : Fin 128) :
    out0_4 x0 x1 x2 (ix2 r c)
      = (∑ k : Fin 128, x0 (ix2 r k) * x1 (ix2 k (secondHalf c))) + x2 (ix2 (0 : Fin 1) (secondHalf c)) := by
  unfold out0_4
  rw [canon4_eq]
  simp only [View.ld_unit_zero (S := S6400x128) offsets_zero, View.ld_unit_zero (S := S128x256) offsets_zero,
    View.ld_unit_zero (S := S1x256) offsets_zero]
  have hi : ix4_0 (ix2 r c) = ix2 r (secondHalf c) := funext fun a => match a with | ⟨0, _⟩ => rfl | ⟨1, _⟩ => rfl
  show k0_pay1 x0 x1 x2 (ix4_0 (ix2 r c)) = _
  rw [hi, pay1_apply]

end Cert.KernelIdeal.Point

end
-- ==== Proof.KernelStages.lean ====
/-
  What the kernel's wrapper computes on the host before the launch, and each of those arrays read at an index.

  Three arrays are staged into the kernel:
  · the scores — per endpoint vector: wrap negative words, clamp explicitly into [0, 49999], wrap again (the table
    lookup's own negative-index rule, idle on a clamped word), gather the rows, subtract; stored as bf16, which at the
    ideal values changes nothing. Entry (e, k) is the specification's `diff` (Proof/Spec.lean `gather_clipped`).
  · the fused weights — the two [128, 128] weight matrices stacked along the channel axis into [256, 128], then
    transposed to [128, 256]: entry (k, c) is W_w[c, k] in the first half of the columns and X_w[c, k] in the second.
  · the fused bias — the two bias vectors concatenated into [256] and reshaped to [1, 256]: entry (0, c) is W_b[c] in
    the first half and X_b[c] in the second.
-/
import proofs.«428263_j79285096284696_3_alg».proof.Proof.Gen.KernelIdeal
import proofs.«428263_j79285096284696_3_alg».proof.Proof.Spec
import Idealize.ShloMosaic.Lib.Pipeline.Value
import Idealize.ShloMosaic.Lib.ValueIdx

noncomputable section

namespace Cert.KernelIdeal.Stages

open Cert.KernelIdeal Cert.KernelIdeal.Gen Idealize.ShloMosaic Idealize.ShloMosaic.ValueIdx Cert.EdgeProj Cert.EdgeRows

variable {F : FTy → Type} [FloatOps F]

/-- A negative endpoint word counts from the table's end, elementwise. -/
def wrapVec (x : IVec S640000 32) : IVec S640000 32 :=
  select (cmpi .slt x (broadcastInDim S640000 ![] bcast_S_S640000 (constantI S_ 32 0#32)))
    (addi x (broadcastInDim S640000 ![] bcast_S_S640000 (constantI S_ 32 50000#32))) x

/-- The explicit clamp into [0, 49999], elementwise. -/
def clipVec (y : IVec S640000 32) : IVec S640000 32 :=
  minsi (broadcastInDim S640000 ![] bcast_S_S640000 (constantI S_ 32 49999#32))
    (maxsi (broadcastInDim S640000 ![] bcast_S_S640000 (constantI S_ 32 0#32)) y)

/-- The column of start words one gather reads. -/
def startCol (x : IVec S640000 32) : IVec S640000x1 32 :=
  broadcastInDim S640000x1 ![0] bcast_S640000_S640000x1_0 (wrapVec (clipVec (wrapVec x)))

/-- The staged scores. -/
def scoreStage (feat : FVec F S50000x128 .f32) (x₁ x₂ : IVec S640000 32) : FVec F S640000x128 .bf16 :=
  truncf .bf16 (subf (Host.gather gather_S50000x128_S640000x1_S640000x128_1_0_n_n_0_1_1128 feat (startCol x₁))
    (Host.gather gather_S50000x128_S640000x1_S640000x128_1_0_n_n_0_1_1128 feat (startCol x₂))) bitsLt_bf16_f32

/-- The staged fused weights. -/
def weightStage (w₁ w₂ : FVec F S128x128 .f32) : FVec F S128x256 .bf16 :=
  truncf .bf16 (transpose S128x256 [1, 0]
    (concatenate S256x128 0 [⟨S128x128, w₁⟩, ⟨S128x128, w₂⟩] concatenates_S128x128_S128x128_S256x128_d0)
    transposes_S256x128_S128x256_1_0) bitsLt_bf16_f32

/-- The staged fused bias. -/
def biasStage (b₁ b₂ : FVec F S128 .f32) : FVec F S1x256 .f32 :=
  shapeCast S1x256 (concatenate S256 0 [⟨S128, b₁⟩, ⟨S128, b₂⟩] concatenates_S128_S128_S256_d0) shapeCasts_S256_S1x256

/-- The start word for edge e: the endpoint word wrapped, clamped, wrapped again. -/
theorem startCol_apply (x : IVec S640000 32) (e : Fin 640000) :
    startCol x (ix2 e (0 : Fin 1)) = wrapNeg (clipNode (wrapNeg (x (ix1 e)))) := by
  unfold startCol
  refine (broadcastInDim_apply _ bcast_S640000_S640000x1_0 _ (ix2 e (0 : Fin 1)) (ix1 e) (fun a => match a with
    | ⟨0, _⟩ => by show e.val = if (640000 : Nat) = 1 then 0 else e.val; rw [if_neg (by decide)])).trans ?_
  rfl

/-- The staged scores are the specification's. -/
theorem scoreStage_apply (feat : FVec Ideal S50000x128 .f32) (x₁ x₂ : IVec S640000 32) (e : Fin 640000) (k : Fin 128) :
    scoreStage feat x₁ x₂ (ix2 e k) = diff feat x₁ x₂ e k := by
  unfold scoreStage diff
  rw [truncf_apply, subf_apply,
    gather_clipped _ rfl rfl rfl rfl rfl feat _ e k _ (startCol_apply x₁ e),
    gather_clipped _ rfl rfl rfl rfl rfl feat _ e k _ (startCol_apply x₂ e)]

/-- The fused weights in the first half of the columns: the first matrix, transposed. -/
theorem weightStage_first (w₁ w₂ : FVec Ideal S128x128 .f32) (k c : Fin 128) :
    weightStage w₁ w₂ (ix2 k (firstHalf c)) = w₁ (ix2 c k) := by
  unfold weightStage
  rw [truncf_apply]
  refine (transpose_apply [1, 0] _ transposes_S256x128_S128x256_1_0 (ix2 k (firstHalf c)) (ix2 (firstHalf c) k)
    (fun b => match b with | ⟨0, _⟩ => rfl | ⟨1, _⟩ => rfl)).trans ?_
  exact concatenate_pair_apply_left 0 w₁ w₂ concatenates_S128x128_S128x128_S256x128_d0 (ix2 (firstHalf c) k) rfl (ix2 c k)
    (fun b => match b with | ⟨0, _⟩ => rfl | ⟨1, _⟩ => rfl)

/-- The fused weights in the second half of the columns: the second matrix, transposed. -/
theorem weightStage_second (w₁ w₂ : FVec Ideal S128x128 .f32) (k c : Fin 128) :
    weightStage w₁ w₂ (ix2 k (secondHalf c)) = w₂ (ix2 c k) := by
  unfold weightStage
  rw [truncf_apply]
  refine (transpose_apply [1, 0] _ transposes_S256x128_S128x256_1_0 (ix2 k (secondHalf c)) (ix2 (secondHalf c) k)
    (fun b => match b with | ⟨0, _⟩ => rfl | ⟨1, _⟩ => rfl)).trans ?_
  exact concatenate_pair_apply_right 0 w₁ w₂ concatenates_S128x128_S128x128_S256x128_d0 (ix2 (secondHalf c) k) rfl rfl (ix2 c k)
    (fun b hb => match b, hb with | ⟨0, _⟩, hb => absurd rfl hb | ⟨1, _⟩, _ => rfl) rfl

/-- The fused bias in the first half: the first bias. -/
theorem biasStage_first (b₁ b₂ : FVec F S128 .f32) (c : Fin 128) :
    biasStage b₁ b₂ (ix2 (0 : Fin 1) (firstHalf c)) = b₁ (ix1 c) := by
  unfold biasStage
  refine (shapeCast_apply _ shapeCasts_S256_S1x256 (ix2 (0 : Fin 1) (firstHalf c)) (ix1 (firstHalf c)) (by
    rw [Shape.rowMajor_val_one, Shape.rowMajor_val_two]; show c.val = 0 * 256 + c.val; omega)).trans ?_
  exact concatenate_pair_apply_left 0 b₁ b₂ concatenates_S128_S128_S256_d0 (ix1 (firstHalf c)) rfl (ix1 c)
    (fun b => match b with | ⟨0, _⟩ => rfl)

/-- The fused bias in the second half: the second bias. -/
theorem biasStage_second (b₁ b₂ : FVec F S128 .f32) (c : Fin 128) :
    biasStage b₁ b₂ (ix2 (0 : Fin 1) (secondHalf c)) = b₂ (ix1 c) := by
  unfold biasStage
  refine (shapeCast_apply _ shapeCasts_S256_S1x256 (ix2 (0 : Fin 1) (secondHalf c)) (ix1 (secondHalf c)) (by
    rw [Shape.rowMajor_val_one, Shape.rowMajor_val_two]; show c.val + 128 = 0 * 256 + (c.val + 128); omega)).trans ?_
  exact concatenate_pair_apply_right 0 b₁ b₂ concatenates_S128_S128_S256_d0 (ix1 (secondHalf c)) rfl rfl (ix1 c)
    (fun b hb => match b, hb with | ⟨0, _⟩, hb => absurd rfl hb) rfl

end Cert.KernelIdeal.Stages

end
-- ==== Proof.KernelOperands.lean ====
/-
  The three arrays the kernel stages, as the region finds them, are the host-side stage functions of the arguments.

  Before the launch the program runs some sixty host operations, printed as nine consecutive stretches (its own lines,
  and the bodies of the helper functions it calls, inlined where they are called). Running two stretches one after the
  other is running their concatenation, so the buffers' contents when the region is entered are reached stretch by
  stretch: `after₀` … `after₇` name the contents after each of the first eight. Every value is written once and read only
  afterwards, so reading a buffer after a stretch is either that stretch's operation applied to earlier contents or,
  when the stretch does not write it, the earlier contents unchanged. Composed, the staged scores, fused weights and fused
  bias are `scoreStage`, `weightStage` and `biasStage` (Proof/KernelStages.lean) of the argument arrays.
-/
import proofs.«428263_j79285096284696_3_alg».proof.Proof.Gen.KernelIdeal.Frame
import proofs.«428263_j79285096284696_3_alg».proof.Proof.KernelStages
import Idealize.ShloMosaic.Lib.StableHlo.Run

noncomputable section

namespace Cert.KernelIdeal.Operands

open Cert.KernelIdeal Cert.KernelIdeal.Gen Cert.KernelIdeal.Stages
open Idealize.ShloMosaic Idealize.ShloMosaic.TcCoe Idealize.SL.Sem Idealize.ShloMosaic.StableHlo

variable {F : FTy → Type} [FloatOps F]

/-- Contents after two lines of operations run one after the other. -/
theorem after_append (l₁ l₂ : List (HloOp τ sig (Elt F))) (W : Valuation τ sig (Elt F)) :
    after (l₁ ++ l₂) W = after l₂ (after l₁ W) := by
  induction l₁ generalizing W with
  | nil => rfl
  | cons op ops ih => rw [List.cons_append, after_cons, after_cons, ih]

variable (m : (ℓ : Loc nD τ sig) → Buf (Elt F) ℓ)

/-- Core c's buffers as launched, and after each of the first eight stretches of host operations. -/
def launched (c : Dev nD) : Valuation τ sig (Elt F) := fun b => m (c, b)
def after₀ (c : Dev nD) : Valuation τ sig (Elt F) := after hostOps0 (launched m c)
def after₁ (c : Dev nD) : Valuation τ sig (Elt F) := after hostOps0_1 (after₀ m c)
def after₂ (c : Dev nD) : Valuation τ sig (Elt F) := after hostOps0_2 (after₁ m c)
def after₃ (c : Dev nD) : Valuation τ sig (Elt F) := after hostOps0_3 (after₂ m c)
def after₄ (c : Dev nD) : Valuation τ sig (Elt F) := after hostOps0_4 (after₃ m c)
def after₅ (c : Dev nD) : Valuation τ sig (Elt F) := after hostOps0_5 (after₄ m c)
def after₆ (c : Dev nD) : Valuation τ sig (Elt F) := after hostOps0_6 (after₅ m c)
def after₇ (c : Dev nD) : Valuation τ sig (Elt F) := after hostOps0_7 (after₆ m c)

theorem after₀_eq (c : Dev nD) : after₀ m c = after hostOps0 (launched m c) := rfl
theorem after₁_eq (c : Dev nD) : after₁ m c = after hostOps0_1 (after₀ m c) := rfl
theorem after₂_eq (c : Dev nD) : after₂ m c = after hostOps0_2 (after₁ m c) := rfl
theorem after₃_eq (c : Dev nD) : after₃ m c = after hostOps0_3 (after₂ m c) := rfl
theorem after₄_eq (c : Dev nD) : after₄ m c = after hostOps0_4 (after₃ m c) := rfl
theorem after₅_eq (c : Dev nD) : after₅ m c = after hostOps0_5 (after₄ m c) := rfl
theorem after₆_eq (c : Dev nD) : after₆ m c = after hostOps0_6 (after₅ m c) := rfl
theorem after₇_eq (c : Dev nD) : after₇ m c = after hostOps0_7 (after₆ m c) := rfl

/-- The region finds the buffers as the last stretch leaves them. -/
theorem V_eq (c : Dev nD) (b : Ref sig .tc) : V m c b = after hostOps0_8 (after₇ m c) (Proc.devRef .tc b) := by
  show after (List.flatten [hostOps0, hostOps0_1, hostOps0_2, hostOps0_3, hostOps0_4, hostOps0_5, hostOps0_6, hostOps0_7, hostOps0_8])
    (fun b => m (c, b)) (Proc.devRef .tc b) = _
  simp only [List.flatten_cons, List.flatten_nil, List.append_nil, after_append]
  rfl

set_option maxHeartbeats 4000000 in
/-- No host operation writes argument 0: the last stretch's start holds it as launched. -/
theorem after₇_arg0 (c : Dev nD) : after₇ m c (Proc.devRef .tc main_arg0) = m ((c : Thread nD τ).loc main_arg0) :=
  ((by rw [V_eq]; simp only [hostOps0_8]; after_results) :
    V m c main_arg0 = after₇ m c (Proc.devRef .tc main_arg0)).symm.trans (V_main_arg0 m c)

set_option maxHeartbeats 4000000 in
/-- No host operation writes argument 3: the last stretch's start holds it as launched. -/
theorem after₇_arg3 (c : Dev nD) : after₇ m c (Proc.devRef .tc main_arg3) = m ((c : Thread nD τ).loc main_arg3) :=
  ((by rw [V_eq]; simp only [hostOps0_8]; after_results) :
    V m c main_arg3 = after₇ m c (Proc.devRef .tc main_arg3)).symm.trans (V_main_arg3 m c)

set_option maxHeartbeats 4000000 in
/-- No host operation writes argument 4: the last stretch's start holds it as launched. -/
theorem after₇_arg4 (c : Dev nD) : after₇ m c (Proc.devRef .tc main_arg4) = m ((c : Thread nD τ).loc main_arg4) :=
  ((by rw [V_eq]; simp only [hostOps0_8]; after_results) :
    V m c main_arg4 = after₇ m c (Proc.devRef .tc main_arg4)).symm.trans (V_main_arg4 m c)

set_option maxHeartbeats 4000000 in
/-- No host operation writes argument 5: the last stretch's start holds it as launched. -/
theorem after₇_arg5 (c : Dev nD) : after₇ m c (Proc.devRef .tc main_arg5) = m ((c : Thread nD τ).loc main_arg5) :=
  ((by rw [V_eq]; simp only [hostOps0_8]; after_results) :
    V m c main_arg5 = after₇ m c (Proc.devRef .tc main_arg5)).symm.trans (V_main_arg5 m c)

set_option maxHeartbeats 4000000 in
/-- No host operation writes argument 6: the last stretch's start holds it as launched. -/
theorem after₇_arg6 (c : Dev nD) : after₇ m c (Proc.devRef .tc main_arg6) = m ((c : Thread nD τ).loc main_arg6) :=
  ((by rw [V_eq]; simp only [hostOps0_8]; after_results) :
    V m c main_arg6 = after₇ m c (Proc.devRef .tc main_arg6)).symm.trans (V_main_arg6 m c)

set_option maxHeartbeats 4000000 in
/-- The staged fused bias. -/
theorem V_bias (c : Dev nD) :
    (V m c main_v32 : FVec F S1x256 .f32) = biasStage (m ((c : Thread nD τ).loc main_arg4)) (m ((c : Thread nD τ).loc main_arg6)) := by
  rw [V_eq]; simp only [hostOps0_8]; after_results
  rw [after₇_arg4, after₇_arg6]
  rfl

set_option maxHeartbeats 4000000 in
/-- The staged fused weights. -/
theorem V_weight (c : Dev nD) :
    (V m c main_v30 : FVec F S128x256 .bf16) = weightStage (m ((c : Thread nD τ).loc main_arg3)) (m ((c : Thread nD τ).loc main_arg5)) := by
  rw [V_eq]; simp only [hostOps0_8]; after_results
  rw [after₇_arg3, after₇_arg5]
  rfl

set_option maxHeartbeats 4000000 in
/-- The source words wrapped and clamped, as the last stretch finds them: written by the second and sixth stretches. -/
theorem after₇_v10 (c : Dev nD) :
    (after₇ m c (Proc.devRef .tc main_v10) : IVec S640000 32) = clipVec (wrapVec (m ((c : Thread nD τ).loc main_arg1))) := by
  rw [after₇_eq]; simp only [hostOps0_7]; after_results
  rw [after₆_eq]; simp only [hostOps0_6]; after_results
  rw [after₅_eq]; simp only [hostOps0_5]; after_results
  rw [after₄_eq]; simp only [hostOps0_4]; after_results
  rw [after₃_eq]; simp only [hostOps0_3]; after_results
  rw [after₂_eq]; simp only [hostOps0_2]; after_results
  rw [after₁_eq]; simp only [hostOps0_1]; after_results
  rw [after₀_eq]; simp only [hostOps0]; after_results
  rfl

set_option maxHeartbeats 4000000 in
/-- The destination words wrapped and clamped: written by the fourth and eighth stretches. -/
theorem after₇_v11 (c : Dev nD) :
    (after₇ m c (Proc.devRef .tc main_v11) : IVec S640000 32) = clipVec (wrapVec (m ((c : Thread nD τ).loc main_arg2))) := by
  rw [after₇_eq]; simp only [hostOps0_7]; after_results
  rw [after₆_eq]; simp only [hostOps0_6]; after_results
  rw [after₅_eq]; simp only [hostOps0_5]; after_results
  rw [after₄_eq]; simp only [hostOps0_4]; after_results
  rw [after₃_eq]; simp only [hostOps0_3]; after_results
  rw [after₂_eq]; simp only [hostOps0_2]; after_results
  rw [after₁_eq]; simp only [hostOps0_1]; after_results
  rw [after₀_eq]; simp only [hostOps0]; after_results
  rfl

set_option maxHeartbeats 4000000 in
/-- The staged scores. -/
theorem V_score (c : Dev nD) :
    (V m c main_v27 : FVec F S640000x128 .bf16)
      = scoreStage (m ((c : Thread nD τ).loc main_arg0)) (m ((c : Thread nD τ).loc main_arg1)) (m ((c : Thread nD τ).loc main_arg2)) := by
  rw [V_eq]; simp only [hostOps0_8]; after_results
  rw [after₇_v10, after₇_v11, after₇_arg0]
  rfl

end Cert.KernelIdeal.Operands

end
-- ==== Proof.KernelResult.lean ====
/-
  The kernel's two result arrays after the run are the specification's two projections.

  The grid has 100 points; point t stages rows 6400·t … 6400·t + 6399 of the scores, the whole fused weights and
  bias, and writes back the same rows of each result. With the body read as in Proof/KernelPoint.lean and the staged
  arrays as in Proof/KernelOperands.lean, what point t writes back to a result is exactly those rows of the
  corresponding projection (`flushed3_eq`, `flushed4_eq`); the hundred blocks tile each result, row i lying in the
  block of point i / 6400 (`cover3`, `cover4`); so each result array ends holding its projection whole.
-/
import proofs.«428263_j79285096284696_3_alg».proof.Proof.Gen.KernelIdeal.Value
import proofs.«428263_j79285096284696_3_alg».proof.Proof.KernelPoint
import proofs.«428263_j79285096284696_3_alg».proof.Proof.KernelOperands

noncomputable section

open scoped BigOperators

namespace Cert.KernelIdeal.Result

open Cert.KernelIdeal Cert.KernelIdeal.Gen Cert.KernelIdeal.Point Cert.KernelIdeal.Stages Cert.KernelIdeal.Operands
open Idealize.ShloMosaic Idealize.ShloMosaic.TcCoe Idealize.SL.Sem Idealize.ShloMosaic.ValueIdx Cert.EdgeProj
open Idealize.ShloMosaic.Pipeline (Dat)

variable (m : (ℓ : Loc nD τ sig) → Buf (Elt Ideal) ℓ) (ρ : Dev nD → PrngReg)

/-! ## The arguments and the staged blocks, each at its literal type -/

abbrev feat (c : Dev nD) : FVec Ideal S50000x128 .f32 := m ((c : Thread nD τ).loc main_arg0)
abbrev srcWords (c : Dev nD) : IVec S640000 32 := m ((c : Thread nD τ).loc main_arg1)
abbrev dstWords (c : Dev nD) : IVec S640000 32 := m ((c : Thread nD τ).loc main_arg2)
abbrev firstWeights (c : Dev nD) : FVec Ideal S128x128 .f32 := m ((c : Thread nD τ).loc main_arg3)
abbrev firstBias (c : Dev nD) : FVec Ideal S128 .f32 := m ((c : Thread nD τ).loc main_arg4)
abbrev secondWeights (c : Dev nD) : FVec Ideal S128x128 .f32 := m ((c : Thread nD τ).loc main_arg5)
abbrev secondBias (c : Dev nD) : FVec Ideal S128 .f32 := m ((c : Thread nD τ).loc main_arg6)

/-- The two projections of the specification at this memory's arguments. -/
abbrev firstProj (c : Dev nD) : S640000x128.Idx → EReal :=
  proj (feat m c) (srcWords m c) (dstWords m c) (firstWeights m c) (firstBias m c)
abbrev secondProj (c : Dev nD) : S640000x128.Idx → EReal :=
  proj (feat m c) (srcWords m c) (dstWords m c) (secondWeights m c) (secondBias m c)

/-- The three blocks point t stages. -/
abbrev scoreBlk (c : Dev nD) (t : Fin cfg0.N) : Vec Ideal S6400x128 .bf16 := iblk m c 0 t
abbrev weightBlk (c : Dev nD) (t : Fin cfg0.N) : Vec Ideal S128x256 .bf16 := iblk m c 1 t
abbrev biasBlk (c : Dev nD) (t : Fin cfg0.N) : Vec Ideal S1x256 .f32 := iblk m c 2 t

/-! ## The index maps, decided over the hundred points -/

theorem point_lt (t : Fin cfg0.N) : t.val < 100 := Nat.lt_of_lt_of_eq t.isLt N_0

/-- The scores and both results move one block of rows per point; the fused weights and bias stay put. -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Row r of point t's block is edge 6400·t + r. -/
abbrev edgeAt (t : Fin cfg0.N) (r : Fin 6400) : Fin 640000 :=
  ⟨t.val * 6400 + r.val, by have := point_lt t; have := r.isLt; omega⟩

/-! ## The staged blocks read at an index -/

/-- The score block at (r, k): the specification's score of edge 6400·t + r. -/
theorem score_read (c : Dev nD) (t : Fin cfg0.N) (r : Fin 6400) (k : Fin 128) :
    scoreBlk m c t (ix2 r k) = diff (feat m c) (srcWords m c) (dstWords m c) (edgeAt t r) k := by
  have ht := point_lt t
  obtain ⟨e00, e01, -, -, -, -, -, -, -, -⟩ := index_maps t
  have he : ((cfg0.win 0).blk t).view.emb (ix2 r k) = ix2 (edgeAt t r) k := by
    funext a; apply Fin.ext
    match a with
    | ⟨0, _⟩ => show win0_0.index t (0 : Fin 2) * 6400 + 1 * r.val = t.val * 6400 + r.val; omega
    | ⟨1, _⟩ => show win0_0.index t (1 : Fin 2) * 128 + 1 * k.val = k.val; omega
  show V m c main_v27 (((cfg0.win 0).blk t).view.emb (ix2 r k)) = _
  rw [he, V_score, scoreStage_apply]

/-- The weight block is the whole fused weight matrix. -/
theorem weight_read (c : Dev nD) (t : Fin cfg0.N) (k : Fin 128) (j : Fin 256) :
    weightBlk m c t (ix2 k j) = weightStage (firstWeights m c) (secondWeights m c) (ix2 k j) := by
  obtain ⟨-, -, e10, e11, -, -, -, -, -, -⟩ := index_maps t
  have he : ((cfg0.win 1).blk t).view.emb (ix2 k j) = ix2 k j := by
    funext a; apply Fin.ext
    match a with
    | ⟨0, _⟩ => show win0_1.index t (0 : Fin 2) * 128 + 1 * k.val = k.val; omega
    | ⟨1, _⟩ => show win0_1.index t (1 : Fin 2) * 256 + 1 * j.val = j.val; omega
  show V m c main_v30 (((cfg0.win 1).blk t).view.emb (ix2 k j)) = _
  rw [he, V_weight]

/-- The bias block is the whole fused bias. -/
theorem bias_read (c : Dev nD) (t : Fin cfg0.N) (j : Fin 256) :
    biasBlk m c t (ix2 (0 : Fin 1) j) = biasStage (firstBias m c) (secondBias m c) (ix2 (0 : Fin 1) j) := by
  obtain ⟨-, -, -, -, e20, e21, -, -, -, -⟩ := index_maps t
  have he : ((cfg0.win 2).blk t).view.emb (ix2 (0 : Fin 1) j) = ix2 (0 : Fin 1) j := by
    funext a; apply Fin.ext
    match a with
    | ⟨0, _⟩ => show win0_2.index t (0 : Fin 2) * 1 + 1 * 0 = 0; omega
    | ⟨1, _⟩ => show win0_2.index t (1 : Fin 2) * 256 + 1 * j.val = j.val; omega
  show V m c main_v32 (((cfg0.win 2).blk t).view.emb (ix2 (0 : Fin 1) j)) = _
  rw [he, V_bias]

/-! ## The first result -/

/-- Entry (r, q) of what point t's body leaves in the first output block is the first projection at edge 6400·t + r,
    channel q: the body's sum over the staged blocks, each block read as the staged array it is a piece of. -/
theorem first_point (c : Dev nD) (t : Fin cfg0.N) (r : Fin 6400) (q : Fin 128) :
    out0_3 (scoreBlk m c t) (weightBlk m c t) (biasBlk m c t) (ix2 r q) = firstProj m c (ix2 (edgeAt t r) q) := by
  refine (first_block_apply (scoreBlk m c t) (weightBlk m c t) (biasBlk m c t) r q).trans ?_
  refine congrArg₂ (· + ·) (Finset.sum_congr rfl fun k _ => ?_) ?_
  · exact congrArg₂ (· * ·) (score_read m c t r k)
      ((weight_read m c t k (firstHalf q)).trans (weightStage_first (firstWeights m c) (secondWeights m c) k q))
  · exact (bias_read m c t (firstHalf q)).trans (biasStage_first (firstBias m c) (secondBias m c) q)

/-- WHAT POINT t WRITES BACK to the first result: rows 6400·t … 6400·t + 6399 of the first projection. -/
theorem flushed3_eq (c : Dev nD) (t : Fin cfg0.N) :
    (dats m 0 c).flushed 3 t = ((cfg0.win 3).blk t).view.read (Elt Ideal) (firstProj m c) := by
  rw [Value.flushed3]
  funext y
  show out0_3 (scoreBlk m c t) (weightBlk m c t) (biasBlk m c t) y = firstProj m c (((cfg0.win 3).blk t).view.emb y)
  have ht := point_lt t
  obtain ⟨-, -, -, -, -, -, e30, e31, -, -⟩ := index_maps t
  have hy : (y : S6400x128.Idx) = ix2 (y 0) (y 1) := eq_ix2 (n0 := 6400) (n1 := 128) y
  have he : ((cfg0.win 3).blk t).view.emb y = ix2 (edgeAt t (y 0)) (y 1) := by
    funext a; apply Fin.ext
    match a with
    | ⟨0, _⟩ => show win0_3.index t (0 : Fin 2) * 6400 + 1 * (y 0).val = t.val * 6400 + (y 0).val; omega
    | ⟨1, _⟩ => show win0_3.index t (1 : Fin 2) * 128 + 1 * (y 1).val = (y 1).val; omega
  exact ((congrArg (out0_3 (scoreBlk m c t) (weightBlk m c t) (biasBlk m c t)) hy).trans
    (first_point m c t (y 0) (y 1))).trans (congrArg (firstProj m c) he.symm)

/-- An index of the first result is in point t's block iff each coordinate is in the block's range on its axis. -/
theorem mem_blk3 (t : Fin cfg0.N) (i : S640000x128.Idx) :
    i ∈ ((cfg0.win 3).blk t).view.set ↔ ∀ a : Fin 2, win0_3.index t a * S6400x128.size a ≤ (i a).val ∧ (i a).val < win0_3.index t a * S6400x128.size a + S6400x128.size a := by
  show i ∈ ((View.whole main_v33_0).slice (win0_3.rect t)).set ↔ _
  rw [View.set_slice_whole, Rect.mem_set_unit]
  exact Iff.rfl

/-- The hundred blocks tile the first result: row i lies in the block of point i / 6400. -/
theorem cover3 (i : S640000x128.Idx) :
    ∃ t : Fin cfg0.N, (cfg0.win 3).flush t = true ∧ i ∈ ((cfg0.win 3).blk t).view.set := by
  have hi0 : (i 0).val < 640000 := (i 0).isLt
  have hi1 : (i 1).val < 128 := (i 1).isLt
  have hN : cfg0.N = 100 := N_0
  refine ⟨⟨(i 0).val / 6400, by rw [hN]; omega⟩, flush0_3 _, ?_⟩
  rw [mem_blk3]
  obtain ⟨-, -, -, -, -, -, e30, e31, -, -⟩ := index_maps ⟨(i 0).val / 6400, by rw [hN]; omega⟩
  intro a
  match a with
  | ⟨0, _⟩ =>
    show win0_3.index _ (0 : Fin 2) * 6400 ≤ (i 0).val ∧ (i 0).val < win0_3.index _ (0 : Fin 2) * 6400 + 6400
    rw [e30]; show (i 0).val / 6400 * 6400 ≤ (i 0).val ∧ (i 0).val < (i 0).val / 6400 * 6400 + 6400; omega
  | ⟨1, _⟩ =>
    show win0_3.index _ (1 : Fin 2) * 128 ≤ (i 1).val ∧ (i 1).val < win0_3.index _ (1 : Fin 2) * 128 + 128
    rw [e31]; omega

/-- THE FIRST RESULT after the run is the first projection. -/
theorem final3 (c : Dev nD) : (dats m 0 c).arrAt 3 cfg0.N = firstProj m c :=
  (dats m 0 c).arrAt_eq_of_cover 3 (firstProj m c) (fun t _ => flushed3_eq m c t) cover3

/-! ## The second result -/

/-- Entry (r, q) of what point t's body leaves in the second output block is the second projection at edge 6400·t + r,
    channel q: the body's sum over the staged blocks, each block read as the staged array it is a piece of. -/
theorem second_point (c : Dev nD) (t : Fin cfg0.N) (r : Fin 6400) (q : Fin 128) :
    out0_4 (scoreBlk m c t) (weightBlk m c t) (biasBlk m c t) (ix2 r q) = secondProj m c (ix2 (edgeAt t r) q) := by
  refine (second_block_apply (scoreBlk m c t) (weightBlk m c t) (biasBlk m c t) r q).trans ?_
  refine congrArg₂ (· + ·) (Finset.sum_congr rfl fun k _ => ?_) ?_
  · exact congrArg₂ (· * ·) (score_read m c t r k)
      ((weight_read m c t k (secondHalf q)).trans (weightStage_second (firstWeights m c) (secondWeights m c) k q))
  · exact (bias_read m c t (secondHalf q)).trans (biasStage_second (firstBias m c) (secondBias m c) q)

/-- WHAT POINT t WRITES BACK to the second result: rows 6400·t … 6400·t + 6399 of the second projection. -/
theorem flushed4_eq (c : Dev nD) (t : Fin cfg0.N) :
    (dats m 0 c).flushed 4 t = ((cfg0.win 4).blk t).view.read (Elt Ideal) (secondProj m c) := by
  rw [Value.flushed4]
  funext y
  show out0_4 (scoreBlk m c t) (weightBlk m c t) (biasBlk m c t) y = secondProj m c (((cfg0.win 4).blk t).view.emb y)
  have ht := point_lt t
  obtain ⟨-, -, -, -, -, -, -, -, e40, e41⟩ := index_maps t
  have hy : (y : S6400x128.Idx) = ix2 (y 0) (y 1) := eq_ix2 (n0 := 6400) (n1 := 128) y
  have he : ((cfg0.win 4).blk t).view.emb y = ix2 (edgeAt t (y 0)) (y 1) := by
    funext a; apply Fin.ext
    match a with
    | ⟨0, _⟩ => show win0_4.index t (0 : Fin 2) * 6400 + 1 * (y 0).val = t.val * 6400 + (y 0).val; omega
    | ⟨1, _⟩ => show win0_4.index t (1 : Fin 2) * 128 + 1 * (y 1).val = (y 1).val; omega
  exact ((congrArg (out0_4 (scoreBlk m c t) (weightBlk m c t) (biasBlk m c t)) hy).trans
    (second_point m c t (y 0) (y 1))).trans (congrArg (secondProj m c) he.symm)

/-- An index of the second result is in point t's block iff each coordinate is in the block's range on its axis. -/
theorem mem_blk4 (t : Fin cfg0.N) (i : S640000x128.Idx) :
    i ∈ ((cfg0.win 4).blk t).view.set ↔ ∀ a : Fin 2, win0_4.index t a * S6400x128.size a ≤ (i a).val ∧ (i a).val < win0_4.index t a * S6400x128.size a + S6400x128.size a := by
  show i ∈ ((View.whole main_v33_1).slice (win0_4.rect t)).set ↔ _
  rw [View.set_slice_whole, Rect.mem_set_unit]
  exact Iff.rfl

/-- The hundred blocks tile the second result: row i lies in the block of point i / 6400. -/
theorem cover4 (i : S640000x128.Idx) :
    ∃ t : Fin cfg0.N, (cfg0.win 4).flush t = true ∧ i ∈ ((cfg0.win 4).blk t).view.set := by
  have hi0 : (i 0).val < 640000 := (i 0).isLt
  have hi1 : (i 1).val < 128 := (i 1).isLt
  have hN : cfg0.N = 100 := N_0
  refine ⟨⟨(i 0).val / 6400, by rw [hN]; omega⟩, flush0_4 _, ?_⟩
  rw [mem_blk4]
  obtain ⟨-, -, -, -, -, -, -, -, e40, e41⟩ := index_maps ⟨(i 0).val / 6400, by rw [hN]; omega⟩
  intro a
  match a with
  | ⟨0, _⟩ =>
    show win0_4.index _ (0 : Fin 2) * 6400 ≤ (i 0).val ∧ (i 0).val < win0_4.index _ (0 : Fin 2) * 6400 + 6400
    rw [e40]; show (i 0).val / 6400 * 6400 ≤ (i 0).val ∧ (i 0).val < (i 0).val / 6400 * 6400 + 6400; omega
  | ⟨1, _⟩ =>
    show win0_4.index _ (1 : Fin 2) * 128 ≤ (i 1).val ∧ (i 1).val < win0_4.index _ (1 : Fin 2) * 128 + 128
    rw [e41]; omega

/-- THE SECOND RESULT after the run is the second projection. -/
theorem final4 (c : Dev nD) : (dats m 0 c).arrAt 4 cfg0.N = secondProj m c :=
  (dats m 0 c).arrAt_eq_of_cover 4 (secondProj m c) (fun t _ => flushed4_eq m c t) cover4

/-! ## The run, read -/

/-- The kernel's run with each result at its projection of the arguments, the arguments unchanged. -/
theorem run : θ_run defs (onTc (τ := τ) (main (F := Ideal))) ⟨m, fun _ => 0, ρ⟩ fun r => ∀ c : Dev nD,
      r.2.mem ((c : Thread nD τ).loc main_v33_0) = firstProj m c
      ∧ r.2.mem ((c : Thread nD τ).loc main_v33_1) = secondProj m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final3 m c), (h c).2.1.trans (final4 m c), (h c).2.2⟩)
    (Value.run_blocks m ρ)

end Cert.KernelIdeal.Result

end
-- ==== Proof.lean ====
/-
  The certificate: a fused edge-score projection kernel against its reference.

  Both programs take a node table (50000 × 128), two endpoint vectors of 640000 words, and two dense layers (a 128 × 128
  weight matrix and a bias of 128 each). For every edge they form the difference of its endpoints' feature rows and apply
  both layers to it. The reference wraps negative endpoint words and gathers, leaving the clamp into the table to the
  gather; the kernel's wrapper wraps, clamps explicitly, wraps again and gathers, then runs ONE matrix product of the
  scores against the two weight matrices laid side by side (transposed, 128 × 256), adds the two biases laid side by
  side, and splits the 256 result columns into the two outputs, 6400 edges per grid point.

  At the ideal values the two are one function (Proof/Spec.lean `proj`, once per layer):
  · an explicitly clamped word is the gather's own clamp of it, so both read the same node rows (Proof/NodeRow.lean);
  · column c of the product against the side-by-side weights is the sum over k of score · W[c, k] for the first layer
    and the same at column c + 128 for the second — the reference's contraction, term for term;
  · the narrowing of the scores and weights to bf16 is the identity on extended reals.
  No rearrangement of a sum or product is used, so the inputs' finiteness is never needed.

  The frames of the two kernel programs are the generated ones; the reference's is its generated run with the results
  dropped; the idealization rewrote nothing, so `preserves` is trivial.
-/
import proofs.«428263_j79285096284696_3_alg».proof.Defs
import proofs.«428263_j79285096284696_3_alg».proof.Proof.Gen.Kernel
import proofs.«428263_j79285096284696_3_alg».proof.Proof.Gen.Kernel.Skeleton
import proofs.«428263_j79285096284696_3_alg».proof.Proof.Gen.Kernel.Launch
import proofs.«428263_j79285096284696_3_alg».proof.Proof.Gen.Kernel.Points
import proofs.«428263_j79285096284696_3_alg».proof.Proof.Gen.Kernel.Frame
import proofs.«428263_j79285096284696_3_alg».proof.Proof.Gen.KernelIdeal
import proofs.«428263_j79285096284696_3_alg».proof.Proof.Gen.KernelIdeal.Skeleton
import proofs.«428263_j79285096284696_3_alg».proof.Proof.Gen.KernelIdeal.Launch
import proofs.«428263_j79285096284696_3_alg».proof.Proof.Gen.KernelIdeal.Points
import proofs.«428263_j79285096284696_3_alg».proof.Proof.Gen.KernelIdeal.Frame
import proofs.«428263_j79285096284696_3_alg».proof.Proof.Gen.ReferenceIdeal
import proofs.«428263_j79285096284696_3_alg».proof.Proof.Gen.Pre_finite_inputs
import proofs.«428263_j79285096284696_3_alg».proof.Proof.Gen.KernelIdeal.Value
import proofs.«428263_j79285096284696_3_alg».proof.Proof.Gen.ReferenceIdeal.Run
import proofs.«428263_j79285096284696_3_alg».proof.Proof.Gen.ReferenceIdeal.Read
import proofs.«428263_j79285096284696_3_alg».proof.Proof.RefValue
import proofs.«428263_j79285096284696_3_alg».proof.Proof.KernelResult
import Idealize.ShloMosaic.Adequacy
import Idealize.ShloMosaic.Init

noncomputable section

namespace Cert.Proof

open Idealize.ShloMosaic Idealize.SL.Sem

/-- The kernel as printed runs and leaves its arguments: the generated frame. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and leaves its arguments: its generated run, the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories agreeing on the arguments both programs end with the two projections of those arguments: the kernel by
    Proof/KernelResult.lean, the reference by its generated run read through Proof/RefValue.lean. -/
theorem algebraic : Cert.algebraic_KernelIdeal_ReferenceIdeal := by
  intro m ρ m' ρ' _ hagree
  refine ⟨fun c => Cert.KernelIdeal.Result.firstProj m c, fun c => Cert.KernelIdeal.Result.secondProj m c,
    Cert.KernelIdeal.Result.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v18_eq, Cert.ReferenceIdeal.RefValue.w_eq, (hagree c).1, (hagree c).2.1,
      (hagree c).2.2.1, (hagree c).2.2.2.1, (hagree c).2.2.2.2.1]
  · rw [Cert.ReferenceIdeal.Read.val_main_v22_eq, Cert.ReferenceIdeal.RefValue.x_eq, (hagree c).1, (hagree c).2.1,
      (hagree c).2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
